-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibRowProducts.lean ====
/-
  A plain matrix product read at one entry.

  For dimension numbers that contract the left operand's axis 1 with the right operand's axis 0, keep the left
  operand's axis 0 and the right operand's axis 1, and batch nothing, the operand indices at result entry (r, c) and
  contraction position k are (r, k) and (k, c). So both the accumulate-into-zero `tpu.matmul` and the host's
  `dot_general` are, at the ideal values, the entry's plain sum  ∑ q < K, l (r, q) · w (q, c)  over the shared axis:
  the same extended real whatever the number of rows of the left operand. This is the one fact that identifies a
  product computed a block of rows at a time with the product of the whole array.
-/
import Idealize.ShloMosaic.PureOps.Ideal.Laws
import Idealize.ShloMosaic.Lib.ValueIdx

noncomputable section

open scoped BigOperators

namespace Cert.Lib.RowProducts

open Idealize.ShloMosaic Idealize.ShloMosaic.ValueIdx

variable {n K c : Nat}

/-- Dimension numbers of a plain product [n, K] × [K, c] → [n, c]: contract left axis 1 with right axis 0, rows from
    the left, columns from the right, no batch axis. -/
structure Plain (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

private theorem val_congr {s : Shape} (j : s.Idx) (p q : Nat) (hp : p < s.rank) (hq : q < s.rank) (h : p = q) :
    (j ⟨p, hp⟩).val = (j ⟨q, hq⟩).val := by subst h; rfl

theorem Plain.rank_contr (h : Plain d) : d.contr.rank = 1 := by rw [d.rank_contr, h.lc]; rfl

theorem Plain.size_contr (h : Plain d) : d.contr.size ⟨0, by rw [h.rank_contr]; exact Nat.one_pos⟩ = K := by
  have := d.size_contr 0 (by rw [h.lc]; exact Nat.one_pos)
  rw [this]; simp only [h.lc]; rfl

/-- The left operand's row is the result's row. -/
theorem Plain.lhs_row (h : Plain d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem Plain.lhs_col (h : Plain d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem Plain.rhs_row (h : Plain d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem Plain.rhs_col (h : Plain d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, c). -/
theorem Plain.sum_eq (h : Plain d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values. -/
theorem Plain.matmul_zero_apply (h : Plain d) (prec : Option ContractPrecision)
    (l : FVec Ideal ⟨2, ![n, K]⟩ .f32) (w : FVec Ideal ⟨2, ![K, c]⟩ .f32) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem Plain.dotGeneral_apply (h : Plain d) (prec : Option ContractPrecision)
    (l : FVec Ideal ⟨2, ![n, K]⟩ .f32) (w : FVec Ideal ⟨2, ![K, c]⟩ .f32) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.RowProducts

end
-- ==== Proof.RegionProducts.lean ====
/-
  What each of the two pallas regions leaves in its output array, at the ideal values.

  A region walks 10 grid points; at point t its body loads rows 5000·t … 5000·t + 4999 of the left operand (a whole
  [5000, 128] block), the whole weight matrix, multiplies them into a zero accumulator, and stores the [5000, c] product
  as block t of the output. Entry (r, k) of that block is  ∑ q < 128, x (5000·t + r, q) · w (q, k),  which is entry
  (5000·t + r, k) of the product of the WHOLE left operand with the weights. The ten blocks tile the 50000 rows, so
  after the region the output array is the whole product, stated here as the host's `dot_general` of the two arrays
  as the region found them (for any plain dimension numbers of the whole shapes).
-/
import proofs.«407197_j56607668961286_3_alg».proof.Proof.Gen.KernelIdeal.Frame
import proofs.«407197_j56607668961286_3_alg».proof.Proof.LibRowProducts
import Idealize.ShloMosaic.Lib.Pipeline.Value

set_option maxRecDepth 16384

noncomputable section

open scoped BigOperators

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.RowProducts

/-- The load and store rectangles start at the block's origin. -/
theorem origin2 : (![0, 0] : Fin 2 → Nat) = fun _ => 0 := funext fun a => by fin_cases a <;> rfl

variable (V : (c : Dev nD) → (b : Ref sig .tc) → Buf (Elt Ideal) ((c : Thread nD τ).loc b))

/-! ## Region 0: [50000, 128] × [128, 128] -/

theorem plain0 : Plain (n := 5000) (K := 128) (c := 128) dot_S5000x128_S128x128_S5000x128_1_0_0_1_n_n :=
  ⟨rfl, rfl, rfl, rfl, rfl, rfl⟩

/-- The body's stored value at an entry: the row of the loaded block against the column of the weights. -/
theorem pay0_apply (x0 : Vec Ideal S5000x128 .f32) (x1 : Vec Ideal S128x128 .f32) (p : Fin 5000) (k : Fin 128) :
    k0_pay1 x0 x1 (ix2 p k) = ∑ q : Fin 128, x0 (ix2 p q) * x1 (ix2 q k) :=
  plain0.matmul_zero_apply none x0 x1 (ix2 p k)

/-- The printed index maps over the grid: the left operand's and the output's blocks are the point's row block, the
    weights' block is the one block there is. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The left operand's block at a point, as a [5000, 128] array. -/
abbrev xblk0 (c : Dev nD) (t : Fin cfg0.N) : Vec Ideal S5000x128 .f32 := iblk0 V c 0 t
/-- The weights' block at a point: the whole [128, 128] array. -/
abbrev wblk0 (c : Dev nD) (t : Fin cfg0.N) : Vec Ideal S128x128 .f32 := iblk0 V c 1 t
/-- The left operand as the region finds it. -/
abbrev xarr0 (c : Dev nD) : FVec Ideal S50000x128 .f32 := V c main_arg0
/-- The weights as the region finds them. -/
abbrev warr0 (c : Dev nD) : FVec Ideal S128x128 .f32 := V c main_arg2

/-- Row p of the point's block of the left operand is row 5000·t + p of the array. -/
theorem xblk0_apply (c : Dev nD) (t : Fin cfg0.N) (p : Fin 5000) (q : Fin 128) (r : Fin 50000) (hr : r.val = t.val * 5000 + p.val) :
    xblk0 V c t (ix2 p q) = xarr0 V c (ix2 r q) := by
  obtain ⟨e0, e1, -, -, -, -, -⟩ := index0 t
  show V c main_arg0 (((cfg0.win 0).blk t).view.emb (ix2 p q)) = V c main_arg0 (ix2 r q)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 128 + 1 * q.val = q.val; omega

/-- The weights' block is the weights. -/
theorem wblk0_apply (c : Dev nD) (t : Fin cfg0.N) (q : Fin 128) (k : Fin 128) :
    wblk0 V c t (ix2 q k) = warr0 V c (ix2 q k) := by
  obtain ⟨-, -, e2, e3, -, -, -⟩ := index0 t
  show V c main_arg2 (((cfg0.win 1).blk t).view.emb (ix2 q k)) = V c main_arg2 (ix2 q k)
  refine congrArg (V c main_arg2) ?_
  funext a; apply Fin.ext
  match a with
  | ⟨0, _⟩ => show win0_1.index t (0 : Fin 2) * 128 + 1 * q.val = q.val; omega
  | ⟨1, _⟩ => show win0_1.index t (1 : Fin 2) * 128 + 1 * k.val = k.val; omega

variable (dR : DotDims S50000x128 S128x128 S50000x128)

/-- The whole product of the two arrays as the region finds them. -/
abbrev prod0 (c : Dev nD) : FVec Ideal S50000x128 .f32 :=
  Host.dotGeneral (F := Ideal) (φ₁ := .f32) (φ₂ := .f32) dR none (xarr0 V c) (warr0 V c)

/-- What point t writes back is block t of the whole product. -/
theorem flushed0_eq (hR : Plain (n := 50000) (K := 128) (c := 128) dR) (c : Dev nD) (t : Fin cfg0.N) :
    (dat0 V c).flushed 2 t = ((cfg0.win 2).blk t).view.read (Elt Ideal) (prod0 V dR c) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨-, -, -, -, e4, e5, ht⟩ := index0 t
  funext y
  obtain ⟨p, k, rfl⟩ : ∃ (p : Fin 5000) (k : Fin 128), y = ix2 p k := ⟨y 0, y 1, eq_ix2 y⟩
  have hr : t.val * 5000 + p.val < 50000 := by have := p.isLt; omega
  have hemb : ((cfg0.win 2).blk t).view.emb (ix2 p k) = ix2 (⟨t.val * 5000 + p.val, hr⟩ : Fin 50000) k := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * k.val = k.val; omega
  show k0_pay1 (xblk0 V c t) (wblk0 V c t) (ix2 p k) = prod0 V dR c (((cfg0.win 2).blk t).view.emb (ix2 p k))
  rw [hemb, pay0_apply]
  refine Eq.trans ?_ (hR.dotGeneral_apply none (xarr0 V c) (warr0 V c) _).symm
  refine Finset.sum_congr rfl fun q _ => ?_
  rw [xblk0_apply V c t p q ⟨t.val * 5000 + p.val, hr⟩ rfl, wblk0_apply V c t q k]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row block is some point's. -/
theorem onto0 : ∀ b : Fin 10, ∃ t : Fin cfg0.N, t.val = b.val :=
  (by decide +kernel : ∀ b : Fin 10, ∃ t : Fin grid0.N, t.val = b.val)

/-- The ten row blocks tile the array: row i lies in the block of point i / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 5000, by omega⟩
  have ht' : t.val = (i 0).val / 5000 := ht
  obtain ⟨-, -, -, -, e4, e5, -⟩ := index0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- AFTER REGION 0 its output array is the whole product of the left operand and the weights as the region found them. -/
theorem value0 (hR : Plain (n := 50000) (K := 128) (c := 128) dR) (c : Dev nD) :
    (dat0 V c).arrAt 2 cfg0.N = prod0 V dR c :=
  (dat0 V c).arrAt_eq_of_cover 2 (prod0 V dR c) (fun t _ => flushed0_eq V dR hR c t) cover0

/-! ## Region 1: [50000, 128] × [128, 64] -/

theorem plain1 : Plain (n := 5000) (K := 128) (c := 64) dot_S5000x128_S128x64_S5000x64_1_0_0_1_n_n :=
  ⟨rfl, rfl, rfl, rfl, rfl, rfl⟩

/-- The body's stored value at an entry (its cast of the loaded block to its own shape changes nothing): the row of
    the loaded block against the column of the weights. -/
theorem pay1_apply (x0 : Vec Ideal S5000x128 .f32) (x1 : Vec Ideal S128x64 .f32) (p : Fin 5000) (k : Fin 64) :
    k1_pay1 x0 x1 (ix2 p k) = ∑ q : Fin 128, x0 (ix2 p q) * x1 (ix2 q k) := by
  unfold k1_pay1
  rw [Idealize.ShloMosaic.shapeCast_self]
  exact plain1.matmul_zero_apply none x0 x1 (ix2 p k)

/-- The printed index maps over the grid: the left operand's and the output's blocks are the point's row block, the
    weights' block is the one block there is. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- The left operand's block at a point, as a [5000, 128] array. -/
abbrev xblk1 (c : Dev nD) (t : Fin cfg1.N) : Vec Ideal S5000x128 .f32 := iblk1 V c 0 t
/-- The weights' block at a point: the whole [128, 64] array. -/
abbrev wblk1 (c : Dev nD) (t : Fin cfg1.N) : Vec Ideal S128x64 .f32 := iblk1 V c 1 t
/-- The left operand (the first layer's activations) as the region finds it. -/
abbrev xarr1 (c : Dev nD) : FVec Ideal S50000x128 .f32 := V c main_v47
/-- The weights as the region finds them. -/
abbrev warr1 (c : Dev nD) : FVec Ideal S128x64 .f32 := V c main_arg4

/-- Row p of the point's block of the left operand is row 5000·t + p of the array. -/
theorem xblk1_apply (c : Dev nD) (t : Fin cfg1.N) (p : Fin 5000) (q : Fin 128) (r : Fin 50000) (hr : r.val = t.val * 5000 + p.val) :
    xblk1 V c t (ix2 p q) = xarr1 V c (ix2 r q) := by
  obtain ⟨e0, e1, -, -, -, -, -⟩ := index1 t
  show V c main_v47 (((cfg1.win 0).blk t).view.emb (ix2 p q)) = V c main_v47 (ix2 r q)
  refine congrArg (V c main_v47) ?_
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- The weights' block is the weights. -/
theorem wblk1_apply (c : Dev nD) (t : Fin cfg1.N) (q : Fin 128) (k : Fin 64) :
    wblk1 V c t (ix2 q k) = warr1 V c (ix2 q k) := by
  obtain ⟨-, -, e2, e3, -, -, -⟩ := index1 t
  show V c main_arg4 (((cfg1.win 1).blk t).view.emb (ix2 q k)) = V c main_arg4 (ix2 q k)
  refine congrArg (V c main_arg4) ?_
  funext a; apply Fin.ext
  match a with
  | ⟨0, _⟩ => show win1_1.index t (0 : Fin 2) * 128 + 1 * q.val = q.val; omega
  | ⟨1, _⟩ => show win1_1.index t (1 : Fin 2) * 64 + 1 * k.val = k.val; omega

variable (dS : DotDims S50000x128 S128x64 S50000x64)

/-- The whole product of the two arrays as the region finds them. -/
abbrev prod1 (c : Dev nD) : FVec Ideal S50000x64 .f32 :=
  Host.dotGeneral (F := Ideal) (φ₁ := .f32) (φ₂ := .f32) dS none (xarr1 V c) (warr1 V c)

/-- What point t writes back is block t of the whole product. -/
theorem flushed1_eq (hS : Plain (n := 50000) (K := 128) (c := 64) dS) (c : Dev nD) (t : Fin cfg1.N) :
    (dat1 V c).flushed 2 t = ((cfg1.win 2).blk t).view.read (Elt Ideal) (prod1 V dS c) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128x64) origin2]
  obtain ⟨-, -, -, -, e4, e5, ht⟩ := index1 t
  funext y
  obtain ⟨p, k, rfl⟩ : ∃ (p : Fin 5000) (k : Fin 64), y = ix2 p k := ⟨y 0, y 1, eq_ix2 y⟩
  have hr : t.val * 5000 + p.val < 50000 := by have := p.isLt; omega
  have hemb : ((cfg1.win 2).blk t).view.emb (ix2 p k) = ix2 (⟨t.val * 5000 + p.val, hr⟩ : Fin 50000) k := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * k.val = k.val; omega
  show k1_pay1 (xblk1 V c t) (wblk1 V c t) (ix2 p k) = prod1 V dS c (((cfg1.win 2).blk t).view.emb (ix2 p k))
  rw [hemb, pay1_apply]
  refine Eq.trans ?_ (hS.dotGeneral_apply none (xarr1 V c) (warr1 V c) _).symm
  refine Finset.sum_congr rfl fun q _ => ?_
  rw [xblk1_apply V c t p q ⟨t.val * 5000 + p.val, hr⟩ rfl, wblk1_apply V c t q k]

/-- An index of the output array is in point t's block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every row block is some point's. -/
theorem onto1 : ∀ b : Fin 10, ∃ t : Fin cfg1.N, t.val = b.val :=
  (by decide +kernel : ∀ b : Fin 10, ∃ t : Fin grid1.N, t.val = b.val)

/-- The ten row blocks tile the array: row i lies in the block of point i / 5000. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := onto1 ⟨(i 0).val / 5000, by omega⟩
  have ht' : t.val = (i 0).val / 5000 := ht
  obtain ⟨-, -, -, -, e4, e5, -⟩ := index1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- AFTER REGION 1 its output array is the whole product of the activations and the weights as the region found them. -/
theorem value1 (hS : Plain (n := 50000) (K := 128) (c := 64) dS) (c : Dev nD) :
    (dat1 V c).arrAt 2 cfg1.N = prod1 V dS c :=
  (dat1 V c).arrAt_eq_of_cover 2 (prod1 V dS c) (fun t _ => flushed1_eq V dS hS c t) cover1

end Cert.KernelIdeal.RegionValue

end
-- ==== Proof.HostChain.lean ====
/-
  The kernel program's result, read back through @main, is the reference's term.

  Around its two pallas regions the kernel's @main runs exactly the reference's host operations, line for line and
  literal for literal: the edge lists with self loops, the degree by a scatter-add of ones, deg^(-1/2) guarded by
  deg > 0, the per-edge weight, then per layer gather · weight, scatter-add, bias (and the relu between the layers).
  The only two lines that differ are the dense transforms: a region where the reference has a `dot_general`. So if
  each region leaves in its output array the `dot_general` of its two operand arrays as it found them (the two
  hypotheses here, proved at the ideal values elsewhere), then walking the buffer contents back from the last
  boundary to the launch memory — each host stretch read operation by operation, each region exit at its
  hypothesis, every buffer a region does not own passing through it — gives term for term the reference's composed
  result. Nothing here looks inside a host operation, and nothing depends on the float instance.
-/
import proofs.«407197_j56607668961286_3_alg».proof.Proof.KernelRun
import proofs.«407197_j56607668961286_3_alg».proof.Proof.RefRun

set_option maxRecDepth 16384

noncomputable section

namespace Cert.KernelIdeal.HostChain

open Idealize.ShloMosaic Idealize.ShloMosaic.TcCoe Idealize.SL.Sem Idealize.ShloMosaic.StableHlo
open Cert.KernelIdeal Cert.KernelIdeal.Gen

variable {F : FTy → Type} [FloatOps F]

/-- The reference's dimension numbers for the first dense transform, [50000, 128] × [128, 128]. -/
abbrev refDot0 : DotDims S50000x128 S128x128 S50000x128 := Cert.ReferenceIdeal.dot_S50000x128_S128x128_S50000x128_1_0_0_1_n_n
/-- The reference's dimension numbers for the second dense transform, [50000, 128] × [128, 64]. -/
abbrev refDot1 : DotDims S50000x128 S128x64 S50000x64 := Cert.ReferenceIdeal.dot_S50000x128_S128x64_S50000x64_1_0_0_1_n_n

variable (m : (ℓ : Loc nD τ sig) → Buf (Elt F) ℓ) (ρ : Dev nD → PrngReg)

set_option maxHeartbeats 40000000 in
/-- The result buffer at the last boundary is the reference's composed term of the arguments. -/
theorem result_eq (c : Dev nD)
    (m' : (ℓ : Loc Cert.ReferenceIdeal.nD Cert.ReferenceIdeal.τ Cert.ReferenceIdeal.sig) → Buf (Elt F) ℓ)
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a2 : m' ((c.tc : Thread Cert.ReferenceIdeal.nD Cert.ReferenceIdeal.τ).loc Cert.ReferenceIdeal.main_arg2) = m ((c.tc : Thread nD τ).loc main_arg2))
    (a3 : m' ((c.tc : Thread Cert.ReferenceIdeal.nD Cert.ReferenceIdeal.τ).loc Cert.ReferenceIdeal.main_arg3) = m ((c.tc : Thread nD τ).loc main_arg3))
    (a4 : m' ((c.tc : Thread Cert.ReferenceIdeal.nD Cert.ReferenceIdeal.τ).loc Cert.ReferenceIdeal.main_arg4) = m ((c.tc : Thread nD τ).loc main_arg4))
    (a5 : m' ((c.tc : Thread Cert.ReferenceIdeal.nD Cert.ReferenceIdeal.τ).loc Cert.ReferenceIdeal.main_arg5) = m ((c.tc : Thread nD τ).loc main_arg5))
    (h0 : (dat0 (V3 m ρ) c).arrAt 2 cfg0.N
      = Host.dotGeneral (φ₁ := .f32) (φ₂ := .f32) refDot0 none (W3 m ρ c (Proc.devRef .tc main_arg0)) (W3 m ρ c (Proc.devRef .tc main_arg2)))
    (h1 : (dat1 (V6 m ρ) c).arrAt 2 cfg1.N
      = Host.dotGeneral (φ₁ := .f32) (φ₂ := .f32) refDot1 none (W6 m ρ c (Proc.devRef .tc main_v47)) (W6 m ρ c (Proc.devRef .tc main_arg4))) :
    W8 m ρ c (Proc.devRef .tc main_v64) = Cert.ReferenceIdeal.Value.res_main_v64 m' c := by
  -- the two region exits at their output arrays
  have r1 : W7 m ρ c (Proc.devRef .tc main_v48)
      = Host.dotGeneral (φ₁ := .f32) (φ₂ := .f32) refDot1 none (W6 m ρ c (Proc.devRef .tc main_v47)) (W6 m ρ c (Proc.devRef .tc main_arg4)) :=
    (W7_arr m ρ c 2).trans h1
  have r0 : W4 m ρ c (Proc.devRef .tc main_v30)
      = Host.dotGeneral (φ₁ := .f32) (φ₂ := .f32) refDot0 none (W3 m ρ c (Proc.devRef .tc main_arg0)) (W3 m ρ c (Proc.devRef .tc main_arg2)) :=
    (W4_arr m ρ c 2).trans h0
  -- the last host stretch, from region 1's exit
  show StableHlo.after hostOps2 (W7 m ρ c) (Proc.devRef .tc main_v64) = _
  after_results_simp
  -- region 1's exit: its output array at the product, every other buffer read passing through
  rw [r1, W7_of_ne m ρ c main_v3 (by decide), W7_of_ne m ρ c main_v6 (by decide), W7_of_ne m ρ c main_v29 (by decide),
    W7_of_ne m ρ c main_arg5 (by decide)]
  -- the stretch between the regions (the relu's lines, then the first layer's aggregation), from region 0's exit
  simp only [W6, W5]
  after_results_simp
  -- region 0's exit
  rw [r0, W4_of_ne m ρ c main_v3 (by decide), W4_of_ne m ρ c main_v6 (by decide), W4_of_ne m ρ c main_v29 (by decide),
    W4_of_ne m ρ c main_arg3 (by decide), W4_of_ne m ρ c main_arg4 (by decide), W4_of_ne m ρ c main_arg5 (by decide)]
  -- the stretches before region 0, from the launch memory
  simp only [W3, W2, W1]
  after_results_simp
  -- what is left is the reference's composed term, once its reads of the arguments are moved across
  unfold Cert.ReferenceIdeal.Value.res_main_v64
  rw [a0, a1, a2, a3, a4, a5]
  rfl

end Cert.KernelIdeal.HostChain

end
-- ==== Proof.lean ====
/-
  The certificate of a two-layer graph convolution whose dense transforms are row-tiled Pallas products.

  Both programs compute  out = Â · relu(Â · (x W1) + b1) · W2 + b2  with Â the symmetrically normalised adjacency
  (self loops added, weights deg^(-1/2)[src] · deg^(-1/2)[dst], aggregation a scatter-add over destinations), and they
  spell every host operation identically. The kernel replaces each of the two `x @ W` by a pallas region that
  multiplies 5000 rows at a time into a zero accumulator; at the ideal values a block's entry is the finite sum
  ∑_q x (row, q) · w (q, col), which is the whole product's entry, and the ten blocks tile the 50000 rows
  (Proof/RegionProducts.lean over Proof/LibRowProducts.lean). Reading the kernel's result buffer back through @main
  with each region's output at that product gives the reference's own composed term (Proof/HostChain.lean), so the two
  runs end with the same array. No finiteness of the inputs is used: only that a sum does not depend on how its rows
  are grouped into blocks. The idealization rewrote nothing, so `preserves` holds trivially.
-/
import proofs.«407197_j56607668961286_3_alg».proof.Defs
import proofs.«407197_j56607668961286_3_alg».proof.Proof.Gen.Kernel
import proofs.«407197_j56607668961286_3_alg».proof.Proof.Gen.Kernel.Skeleton
import proofs.«407197_j56607668961286_3_alg».proof.Proof.Gen.Kernel.Launch
import proofs.«407197_j56607668961286_3_alg».proof.Proof.Gen.Kernel.Points
import proofs.«407197_j56607668961286_3_alg».proof.Proof.Gen.Kernel.Frame
import proofs.«407197_j56607668961286_3_alg».proof.Proof.Gen.KernelIdeal
import proofs.«407197_j56607668961286_3_alg».proof.Proof.Gen.KernelIdeal.Skeleton
import proofs.«407197_j56607668961286_3_alg».proof.Proof.Gen.KernelIdeal.Launch
import proofs.«407197_j56607668961286_3_alg».proof.Proof.Gen.KernelIdeal.Points
import proofs.«407197_j56607668961286_3_alg».proof.Proof.Gen.KernelIdeal.Frame
import proofs.«407197_j56607668961286_3_alg».proof.Proof.Gen.ReferenceIdeal
import proofs.«407197_j56607668961286_3_alg».proof.Proof.Gen.Pre_finite_inputs
import proofs.«407197_j56607668961286_3_alg».proof.Proof.RefRun
import proofs.«407197_j56607668961286_3_alg».proof.Proof.KernelRun
import proofs.«407197_j56607668961286_3_alg».proof.Proof.RegionProducts
import proofs.«407197_j56607668961286_3_alg».proof.Proof.HostChain
import Idealize.ShloMosaic.Adequacy
import Idealize.ShloMosaic.Init

noncomputable section

namespace Cert.Proof

open Idealize.ShloMosaic Idealize.SL.Sem Cert.Lib.RowProducts

/-- The reference's first `dot_general` is a plain product [50000, 128] × [128, 128]. -/
theorem refPlain0 : Plain (n := 50000) (K := 128) (c := 128) Cert.KernelIdeal.HostChain.refDot0 :=
  ⟨rfl, rfl, rfl, rfl, rfl, rfl⟩
/-- The reference's second `dot_general` is a plain product [50000, 128] × [128, 64]. -/
theorem refPlain1 : Plain (n := 50000) (K := 128) (c := 64) Cert.KernelIdeal.HostChain.refDot1 :=
  ⟨rfl, rfl, rfl, rfl, rfl, rfl⟩

theorem frame_kernel : Cert.frame_Kernel := fun m ρ _ => Cert.Kernel.Gen.frame m ρ
theorem frame_kernelIdeal : Cert.frame_KernelIdeal := fun m ρ _ => Cert.KernelIdeal.Gen.frame m ρ
/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's composed term of them: the
    reference by its run, the kernel by its run read back through @main with each region's output array at the whole
    product of its operands. -/
theorem algebraic : Cert.algebraic_KernelIdeal_ReferenceIdeal := by
  intro m ρ m' ρ' _ hagree
  refine ⟨fun c => Cert.ReferenceIdeal.Value.res_main_v64 (F := Ideal) m' c, ?_,
    Cert.ReferenceIdeal.Value.run (F := Ideal) m' ρ'⟩
  refine (θ_run Cert.KernelIdeal.defs _ _).mono (fun _ h c => ⟨(h c).1.trans ?_, (h c).2⟩)
    (Cert.KernelIdeal.Gen.run_result (F := Ideal) m ρ)
  obtain ⟨a0, a1, a2, a3, a4, a5⟩ := hagree c
  exact Cert.KernelIdeal.HostChain.result_eq m ρ c m' a0 a1 a2 a3 a4 a5
    (Cert.KernelIdeal.RegionValue.value0 (Cert.KernelIdeal.Gen.V3 m ρ) _ refPlain0 c)
    (Cert.KernelIdeal.RegionValue.value1 (Cert.KernelIdeal.Gen.V6 m ρ) _ refPlain1 c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
